-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x64 .f32) (main_arg3 : FVec F S64 .f32) (main_arg4 : FVec F S32x64 .f32) (main_arg5 : FVec F S64x32 .f32) (main_arg6 : FVec F S32 .f32) (main_arg7 : FVec F S64x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x32 : Shape := ⟨2, ![1, 32]⟩

abbrev nBuf : Space → Nat
  | .hbm => 60
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S_, .f32⟩
  | .hbm, ⟨34, _⟩ => ⟨S100000x32, .f32⟩
  | .hbm, ⟨35, _⟩ => ⟨S1600000x1, .i32⟩
  | .hbm, ⟨36, _⟩ => ⟨S100000x32, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x32, .f32⟩
  | .hbm, ⟨59, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S10000x32, .f32⟩
  | .local _ .vmem, ⟨17, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v24) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  Two-layer GraphSAGE with mean aggregation, read on the extended reals.

  Every edge (s, t) carries the features of its source node s to its target node t. A node's aggregate is the
  sum of what arrives at it divided by d = max(deg, 1), where deg counts the edges that end in it. One layer is

      out = (agg · W_l + b) + x · W_r,

  and the first layer is followed by max(·, 0).

  This module names the pieces once, as functions of the edge array and of a feature array. The gather along the
  source nodes and the segment sum over the target nodes are applied by both programs to the same operands, so
  they are carried as they stand and never opened. What the two programs do differently is

    * the mean: the segment sum times the reciprocal 1/d on one side, the quotient by d on the other
      (`meanMul32_eq`, `meanMul64_eq`);
    * the order of a layer's three terms: (a + c) + b on one side, (a + b) + c on the other.

  Both are laws of the extended reals that ask for no finiteness: d ≥ 1 is never zero, so s · (1 · d⁻¹) = s · d⁻¹,
  and + is associative and commutative on all of [-∞, +∞].
-/
import proofs.«169534_j38869454028882_1_alg».proof.ReferenceIdeal
import proofs.«169534_j38869454028882_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Sage

open Cert.ReferenceIdeal Cert.ReferenceIdeal.Gen Idealize.ShloMosaic Idealize.ShloMosaic.TcCoe Idealize.ShloMosaic.ValueIdx

/-! ## Three facts about the extended reals -/

/-- The single-precision word of 1.0 is the real number 1. -/
theorem one_f32 : Ideal.ofBits .f32 0x3F800000#32 = 1 := by
  simp [Ideal.ofBits, Ideal.ieee, -EReal.coe_mul]; norm_num

/-- Off a zero divisor a product with the reciprocal is the quotient: s · (1 / d) = s / d. Nothing is asked of s,
    which may be infinite: both sides are s · d⁻¹. -/
theorem mul_one_div (s d : EReal) (hd : d ≠ 0) : s * Ideal.div 1 d = Ideal.div s d := by
  unfold Ideal.div
  rw [if_neg hd, if_neg hd, one_mul]

/-- A count clamped below by 1 is never zero, whatever the count. -/
theorem max_one_ne_zero (a : EReal) : max a 1 ≠ 0 :=
  ne_of_gt (lt_of_lt_of_le zero_lt_one (le_max_right a 1))

/-! ## The edges -/

/-- The edge array: row 0 the source node of every edge, row 1 its target node. -/
abbrev Edges := (⟨S2x1600000, .i32⟩ : BufTy).Contents (Elt Ideal)

/-- The target node of every edge, as a column. -/
def dstIdx (e : Edges) : (⟨S1600000x1, .i32⟩ : BufTy).Contents (Elt Ideal) :=
  broadcastInDim S1600000x1 ![0] bcast_S1600000_S1600000x1_0 (shapeCast _ (extractStridedSlice S1x1600000 ![1, 0] e slices_S2x1600000_S1x1600000_1_0) shapeCasts_S1x1600000_S1600000)

/-- The source node of every edge, as a column; a negative entry counts from the end (it is moved up by the
    number of nodes). -/
def srcIdx (e : Edges) : (⟨S1600000x1, .i32⟩ : BufTy).Contents (Elt Ideal) :=
  broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))

/-- d = max(deg, 1): the number of edges that end in each node, clamped below by 1. -/
def degClamp (e : Edges) : FVec Ideal S100000 .f32 :=
  maximumf (Host.scatterAdd scatter_S100000_S1600000x1_S1600000_n_0_0_1 (broadcastInDim S100000 ![] bcast_S_S100000 (constant (F := Ideal) S_ .f32 0x00000000#32)) (dstIdx e) (broadcastInDim S1600000 ![] bcast_S_S1600000 (constant (F := Ideal) S_ .f32 0x3F800000#32))) (broadcastInDim S100000 ![] bcast_S_S100000 (constant (F := Ideal) S_ .f32 0x3F800000#32))

/-- The literal 1.0 spread over the nodes is 1 at every node. -/
theorem oneSplat_apply (j : S100000.Idx) :
    broadcastInDim S100000 ![] bcast_S_S100000 (constant (F := Ideal) S_ .f32 0x3F800000#32) j = 1 :=
  (broadcastInDim_apply _ bcast_S_S100000 _ j (fun a => a.elim0) (fun a => a.elim0)).trans ((constant_apply _ _).trans one_f32)

/-- The clamped count is never zero. -/
theorem degClamp_ne_zero (e : Edges) (j : S100000.Idx) : degClamp e j ≠ 0 := by
  unfold degClamp
  generalize Host.scatterAdd (F := Ideal) scatter_S100000_S1600000x1_S1600000_n_0_0_1 _ _ _ = cnt
  rw [maximumf_apply, oneSplat_apply]
  exact max_one_ne_zero _

/-! ## The segment sums: each node's sum of its in-neighbours' feature rows -/

def sum32 (e : Edges) (f : FVec Ideal S100000x32 .f32) : FVec Ideal S100000x32 .f32 :=
  Host.scatterAdd scatter_S100000x32_S1600000x1_S1600000x32_1_0_0_1 (broadcastInDim S100000x32 ![] bcast_S_S100000x32 (constant (F := Ideal) S_ .f32 0x00000000#32)) (dstIdx e) (Host.gather gather_S100000x32_S1600000x1_S1600000x32_1_0_n_n_0_1_132 f (srcIdx e))

def sum64 (e : Edges) (f : FVec Ideal S100000x64 .f32) : FVec Ideal S100000x64 .f32 :=
  Host.scatterAdd scatter_S100000x64_S1600000x1_S1600000x64_1_0_0_1 (broadcastInDim S100000x64 ![] bcast_S_S100000x64 (constant (F := Ideal) S_ .f32 0x00000000#32)) (dstIdx e) (Host.gather gather_S100000x64_S1600000x1_S1600000x64_1_0_n_n_0_1_164 f (srcIdx e))

/-! ## The mean, in its two spellings -/

/-- The mean as a quotient: sum / d, row by row. -/
def meanDiv32 (e : Edges) (f : FVec Ideal S100000x32 .f32) : FVec Ideal S100000x32 .f32 :=
  Host.divf (sum32 e f) (broadcastInDim S100000x32 ![0, 1] bcast_S100000x1_S100000x32_0_1 (broadcastInDim S100000x1 ![0] bcast_S100000_S100000x1_0 (degClamp e)))

def meanDiv64 (e : Edges) (f : FVec Ideal S100000x64 .f32) : FVec Ideal S100000x64 .f32 :=
  Host.divf (sum64 e f) (broadcastInDim S100000x64 ![0, 1] bcast_S100000x1_S100000x64_0_1 (broadcastInDim S100000x1 ![0] bcast_S100000_S100000x1_0 (degClamp e)))

/-- The reciprocal 1 / d, computed once for both layers. -/
def invDeg (e : Edges) : FVec Ideal S100000 .f32 :=
  Host.divf (broadcastInDim S100000 ![] bcast_S_S100000 (constant (F := Ideal) S_ .f32 0x3F800000#32)) (degClamp e)

/-- The mean as a product: sum · (1 / d), row by row. -/
def meanMul32 (e : Edges) (f : FVec Ideal S100000x32 .f32) : FVec Ideal S100000x32 .f32 :=
  mulf (sum32 e f) (broadcastInDim S100000x32 ![0, 1] bcast_S100000x1_S100000x32_0_1 (broadcastInDim S100000x1 ![0] bcast_S100000_S100000x1_0 (invDeg e)))

def meanMul64 (e : Edges) (f : FVec Ideal S100000x64 .f32) : FVec Ideal S100000x64 .f32 :=
  mulf (sum64 e f) (broadcastInDim S100000x64 ![0, 1] bcast_S100000x1_S100000x64_0_1 (broadcastInDim S100000x1 ![0] bcast_S100000_S100000x1_0 (invDeg e)))

/-- The node an entry of a 32-wide (64-wide) feature array belongs to, and that node's place in a one-column array. -/
abbrev nodeOf32 (i : S100000x32.Idx) : S100000.Idx := fun a => match a with
  | ⟨0, _⟩ => ⟨(i 0).val, (i 0).isLt⟩
abbrev colOf32 (i : S100000x32.Idx) : S100000x1.Idx := fun a => match a with
  | ⟨0, _⟩ => ⟨(i 0).val, (i 0).isLt⟩
  | ⟨1, _⟩ => ⟨0, Nat.one_pos⟩
abbrev nodeOf64 (i : S100000x64.Idx) : S100000.Idx := fun a => match a with
  | ⟨0, _⟩ => ⟨(i 0).val, (i 0).isLt⟩
abbrev colOf64 (i : S100000x64.Idx) : S100000x1.Idx := fun a => match a with
  | ⟨0, _⟩ => ⟨(i 0).val, (i 0).isLt⟩
  | ⟨1, _⟩ => ⟨0, Nat.one_pos⟩

/-- A per-node value spread along a row of 32 is that node's value. -/
theorem rowBcast32_apply (v : FVec Ideal S100000 .f32) (i : S100000x32.Idx) :
    broadcastInDim S100000x32 ![0, 1] bcast_S100000x1_S100000x32_0_1 (broadcastInDim S100000x1 ![0] bcast_S100000_S100000x1_0 v) i
      = v (nodeOf32 i) :=
  (broadcastInDim_apply _ bcast_S100000x1_S100000x32_0_1 _ i (colOf32 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans
  (broadcastInDim_apply _ bcast_S100000_S100000x1_0 v (colOf32 i) (nodeOf32 i) (fun a => match a with
    | ⟨0, _⟩ => by show (i 0).val = if (100000 : Nat) = 1 then 0 else (i 0).val; rw [if_neg (by decide)]))

theorem rowBcast64_apply (v : FVec Ideal S100000 .f32) (i : S100000x64.Idx) :
    broadcastInDim S100000x64 ![0, 1] bcast_S100000x1_S100000x64_0_1 (broadcastInDim S100000x1 ![0] bcast_S100000_S100000x1_0 v) i
      = v (nodeOf64 i) :=
  (broadcastInDim_apply _ bcast_S100000x1_S100000x64_0_1 _ i (colOf64 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans
  (broadcastInDim_apply _ bcast_S100000_S100000x1_0 v (colOf64 i) (nodeOf64 i) (fun a => match a with
    | ⟨0, _⟩ => by show (i 0).val = if (100000 : Nat) = 1 then 0 else (i 0).val; rw [if_neg (by decide)]))

/-- 1 / d at a node, with the literal 1 read as the number. -/
theorem invDeg_apply (e : Edges) (j : S100000.Idx) : invDeg e j = Ideal.div 1 (degClamp e j) := by
  unfold invDeg
  generalize degClamp e = d
  have hq : ∀ a b : FVec Ideal S100000 .f32, Host.divf a b j = Ideal.div (a j) (b j) := fun _ _ => rfl
  rw [hq, oneSplat_apply]

/-- THE MEAN'S TWO SPELLINGS AGREE: sum · (1 / d) = sum / d at every entry, because d ≥ 1 is not zero. The segment
    sum is carried as it stands. -/
theorem meanMul32_eq (e : Edges) (f : FVec Ideal S100000x32 .f32) : meanMul32 e f = meanDiv32 e f := by
  funext i
  unfold meanMul32 meanDiv32
  generalize sum32 e f = s
  have hm : ∀ a b : FVec Ideal S100000x32 .f32, mulf a b i = a i * b i := fun _ _ => rfl
  have hq : ∀ a b : FVec Ideal S100000x32 .f32, Host.divf a b i = Ideal.div (a i) (b i) := fun _ _ => rfl
  rw [hm, hq, rowBcast32_apply, rowBcast32_apply, invDeg_apply]
  exact mul_one_div _ _ (degClamp_ne_zero e _)

theorem meanMul64_eq (e : Edges) (f : FVec Ideal S100000x64 .f32) : meanMul64 e f = meanDiv64 e f := by
  funext i
  unfold meanMul64 meanDiv64
  generalize sum64 e f = s
  have hm : ∀ a b : FVec Ideal S100000x64 .f32, mulf a b i = a i * b i := fun _ _ => rfl
  have hq : ∀ a b : FVec Ideal S100000x64 .f32, Host.divf a b i = Ideal.div (a i) (b i) := fun _ _ => rfl
  rw [hm, hq, rowBcast64_apply, rowBcast64_apply, invDeg_apply]
  exact mul_one_div _ _ (degClamp_ne_zero e _)

/-! ## One layer, entry by entry

A layer's entry (r, c) is a sum over the input width of mean(r, k) · W_l(k, c), a second such sum of in(r, k) · W_r(k, c),
and the bias at column c. The bias enters as its value at the entry, `β i`, so that a one-row bias matrix and a bias
vector spread over the rows are the same argument. -/

abbrev lrow32 (i : S100000x64.Idx) (k : Fin 32) : S100000x32.Idx := fun a => match a with
  | ⟨0, _⟩ => ⟨(i 0).val, (i 0).isLt⟩
  | ⟨1, _⟩ => ⟨k.val, k.isLt⟩
abbrev rcol32 (i : S100000x64.Idx) (k : Fin 32) : S32x64.Idx := fun a => match a with
  | ⟨0, _⟩ => ⟨k.val, k.isLt⟩
  | ⟨1, _⟩ => ⟨(i 1).val, (i 1).isLt⟩
abbrev lrow64 (i : S100000x32.Idx) (k : Fin 64) : S100000x64.Idx := fun a => match a with
  | ⟨0, _⟩ => ⟨(i 0).val, (i 0).isLt⟩
  | ⟨1, _⟩ => ⟨k.val, k.isLt⟩
abbrev rcol64 (i : S100000x32.Idx) (k : Fin 64) : S64x32.Idx := fun a => match a with
  | ⟨0, _⟩ => ⟨k.val, k.isLt⟩
  | ⟨1, _⟩ => ⟨(i 1).val, (i 1).isLt⟩

/-- The column of an entry, as an index of a bias vector. -/
abbrev bias64 (i : S100000x64.Idx) : S64.Idx := fun a => match a with
  | ⟨0, _⟩ => ⟨(i 1).val, (i 1).isLt⟩
abbrev bias32 (i : S100000x32.Idx) : S32.Idx := fun a => match a with
  | ⟨0, _⟩ => ⟨(i 1).val, (i 1).isLt⟩
/-- The same column in a one-row bias matrix. -/
abbrev brow64 (i : S100000x64.Idx) : S1x64.Idx := fun a => match a with
  | ⟨0, _⟩ => ⟨0, Nat.one_pos⟩
  | ⟨1, _⟩ => ⟨(i 1).val, (i 1).isLt⟩
abbrev brow32 (i : S100000x32.Idx) : S1x32.Idx := fun a => match a with
  | ⟨0, _⟩ => ⟨0, Nat.one_pos⟩
  | ⟨1, _⟩ => ⟨(i 1).val, (i 1).isLt⟩

/-- THE FIRST LAYER: max((mean · W_l + x · W_r) + b, 0), from the aggregated mean `A` and the node features `X`. -/
def layer1 (A X : FVec Ideal S100000x32 .f32) (Wl Wr : FVec Ideal S32x64 .f32) (β : S100000x64.Idx → EReal) : FVec Ideal S100000x64 .f32 :=
  fun i => max (((∑ k : Fin 32, A (lrow32 i k) * Wl (rcol32 i k)) + ∑ k : Fin 32, X (lrow32 i k) * Wr (rcol32 i k)) + β i)
    (Ideal.ofBits .f32 0x00000000#32)

/-- THE SECOND LAYER: (mean · W_l + h · W_r) + b, from the aggregated mean `A` of the hidden features `H`. -/
def layer2 (A H : FVec Ideal S100000x64 .f32) (Wl Wr : FVec Ideal S64x32 .f32) (β : S100000x32.Idx → EReal) : FVec Ideal S100000x32 .f32 :=
  fun i => ((∑ k : Fin 64, A (lrow64 i k) * Wl (rcol64 i k)) + ∑ k : Fin 64, H (lrow64 i k) * Wr (rcol64 i k)) + β i

/-- The hidden features and the output of the whole network, the mean taken as a quotient. -/
def hidden (e : Edges) (x : FVec Ideal S100000x32 .f32) (W1l W1r : FVec Ideal S32x64 .f32) (b1 : FVec Ideal S64 .f32) : FVec Ideal S100000x64 .f32 :=
  layer1 (meanDiv32 e x) x W1l W1r (fun i => b1 (bias64 i))

def output (e : Edges) (x : FVec Ideal S100000x32 .f32) (W1l W1r : FVec Ideal S32x64 .f32) (b1 : FVec Ideal S64 .f32)
    (W2l W2r : FVec Ideal S64x32 .f32) (b2 : FVec Ideal S32 .f32) : FVec Ideal S100000x32 .f32 :=
  layer2 (meanDiv64 e (hidden e x W1l W1r b1)) (hidden e x W1l W1r b1) W2l W2r (fun i => b2 (bias32 i))

end Cert.Sage

end
-- ==== Proof.KernelHost.lean ====
/-
  The arrays each linear stage is entered with, read back through the host operations that computed them.

  Before the first stage the host forms, from the edge array and the node features, the segment sum of the gathered
  source rows, the clamped in-degree d and its reciprocal, and their product: the mean in its product spelling. Between
  the stages it does the same with the hidden features the first stage left. No host operation writes an argument, and
  the second stretch reads the edge rows and the reciprocal that the first stretch computed, which the first stage does
  not touch. A bias vector reaches its stage as a one-row matrix with the same entries.
-/
import proofs.«169534_j38869454028882_1_alg».proof.Proof.Gen.KernelIdeal.Frame
import proofs.«169534_j38869454028882_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first host stretch -/

/-- The arguments are as launched: no host operation writes one. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-- The mean of the neighbours' features, as the product of the segment sum with 1 / d. -/
theorem W1_v24 (c : Dev nD) : W1 m ρ c (Proc.devRef .tc main_v24) = meanMul32 (m ((c : Thread nD τ).loc main_arg1)) (m ((c : Thread nD τ).loc main_arg0)) := by
  show StableHlo.after hostOps0 (W0 m ρ c) (Proc.devRef .tc main_v24) = _
  after_results_simp
  unfold meanMul32 invDeg sum32 degClamp dstIdx srcIdx
  rfl

/-- The reciprocal 1 / d. -/
theorem W1_v11 (c : Dev nD) : W1 m ρ c (Proc.devRef .tc main_v11) = invDeg (m ((c : Thread nD τ).loc main_arg1)) := by
  show StableHlo.after hostOps0 (W0 m ρ c) (Proc.devRef .tc main_v11) = _
  after_results_simp
  unfold invDeg degClamp dstIdx
  rfl

/-- The first bias as a one-row matrix. -/
theorem W1_v25 (c : Dev nD) : W1 m ρ c (Proc.devRef .tc main_v25) = shapeCast S1x64 (m ((c : Thread nD τ).loc main_arg3)) shapeCasts_S64_S1x64 := by
  show StableHlo.after hostOps0 (W0 m ρ c) (Proc.devRef .tc main_v25) = _
  after_results_simp <;> rfl

/-- The source and the target row of the edge array. -/
theorem W1_v1 (c : Dev nD) : W1 m ρ c (Proc.devRef .tc main_v1) = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp <;> rfl

theorem W1_v3 (c : Dev nD) : W1 m ρ c (Proc.devRef .tc main_v3) = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp <;> rfl

/-! ## After the first stage: what it does not own is untouched -/

theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_v11 (c : Dev nD) : W2 m ρ c (Proc.devRef .tc main_v11) = W1 m ρ c (Proc.devRef .tc main_v11) :=
  W2_of_ne m ρ c main_v11 (by decide)

/-- The hidden features are what the first stage's write-backs leave. -/
theorem W2_v26 (c : Dev nD) : W2 m ρ c (Proc.devRef .tc main_v26) = (dat0 (V1 m ρ) c).arrAt 5 cfg0.N :=
  W2_arr m ρ c 5

/-! ## After the second host stretch -/

theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact (W2_arg5 m ρ c).trans (W1_arg5 m ρ c)
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact (W2_arg7 m ρ c).trans (W1_arg7 m ρ c)
/-- The hidden features pass through the second stretch unwritten. -/
theorem W3_v26 (c : Dev nD) : W3 m ρ c (Proc.devRef .tc main_v26) = W2 m ρ c (Proc.devRef .tc main_v26) := by
  show StableHlo.after hostOps1 (W2 m ρ c) (Proc.devRef .tc main_v26) = _
  after_results_simp
/-- The second bias as a one-row matrix. -/
theorem W3_v40 (c : Dev nD) : W3 m ρ c (Proc.devRef .tc main_v40) = shapeCast S1x32 (m ((c : Thread nD τ).loc main_arg6)) shapeCasts_S32_S1x32 := by
  show StableHlo.after hostOps1 (W2 m ρ c) (Proc.devRef .tc main_v40) = _
  after_results_simp
  rw [W2_arg6 m ρ c, W1_arg6 m ρ c]
  rfl
/-- The mean of the neighbours' hidden features, as the product of the segment sum with the same 1 / d. -/
theorem W3_v39 (c : Dev nD) : W3 m ρ c (Proc.devRef .tc main_v39)
    = meanMul64 (m ((c : Thread nD τ).loc main_arg1)) (W2 m ρ c (Proc.devRef .tc main_v26)) := by
  show StableHlo.after hostOps1 (W2 m ρ c) (Proc.devRef .tc main_v39) = _
  after_results_simp
  rw [W2_v1 m ρ c, W2_v3 m ρ c, W2_v11 m ρ c, W1_v1 m ρ c, W1_v3 m ρ c, W1_v11 m ρ c]
  unfold meanMul64 sum64 dstIdx srcIdx
  rfl

/-! ## A bias read at an entry's column -/

theorem bias64_apply (b : FVec Ideal S64 .f32) (i : Cert.ReferenceIdeal.S100000x64.Idx) :
    shapeCast S1x64 b shapeCasts_S64_S1x64 (brow64 i) = b (bias64 i) :=
  shapeCast_apply b shapeCasts_S64_S1x64 (brow64 i) (bias64 i)
    (by rewrite [Shape.rowMajor_val_one, Shape.rowMajor_val_two]; show (i 1).val = 0 * 64 + (i 1).val; omega)
theorem bias32_apply (b : FVec Ideal S32 .f32) (i : Cert.ReferenceIdeal.S100000x32.Idx) :
    shapeCast S1x32 b shapeCasts_S32_S1x32 (brow32 i) = b (bias32 i) :=
  shapeCast_apply b shapeCasts_S32_S1x32 (brow32 i) (bias32 i)
    (by rewrite [Shape.rowMajor_val_one, Shape.rowMajor_val_two]; show (i 1).val = 0 * 32 + (i 1).val; omega)

/-! ## The same facts at the contents each stage's proof data are stated over -/

theorem V1_v24 (c : Dev nD) : V1 m ρ c main_v24 = meanMul32 (m ((c : Thread nD τ).loc main_arg1)) (m ((c : Thread nD τ).loc main_arg0)) := W1_v24 m ρ c
theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c
theorem V1_arg4 (c : Dev nD) : V1 m ρ c main_arg4 = m ((c : Thread nD τ).loc main_arg4) := W1_arg4 m ρ c
theorem V1_v25 (c : Dev nD) : V1 m ρ c main_v25 = shapeCast S1x64 (m ((c : Thread nD τ).loc main_arg3)) shapeCasts_S64_S1x64 := W1_v25 m ρ c
theorem V3_v39 (c : Dev nD) : V3 m ρ c main_v39 = meanMul64 (m ((c : Thread nD τ).loc main_arg1)) ((dat0 (V1 m ρ) c).arrAt 5 cfg0.N) :=
  (W3_v39 m ρ c).trans (congrArg (meanMul64 (m ((c : Thread nD τ).loc main_arg1))) (W2_v26 m ρ c))
theorem V3_v26 (c : Dev nD) : V3 m ρ c main_v26 = (dat0 (V1 m ρ) c).arrAt 5 cfg0.N := (W3_v26 m ρ c).trans (W2_v26 m ρ c)
theorem V3_arg5 (c : Dev nD) : V3 m ρ c main_arg5 = m ((c : Thread nD τ).loc main_arg5) := W3_arg5 m ρ c
theorem V3_arg7 (c : Dev nD) : V3 m ρ c main_arg7 = m ((c : Thread nD τ).loc main_arg7) := W3_arg7 m ρ c
theorem V3_v40 (c : Dev nD) : V3 m ρ c main_v40 = shapeCast S1x32 (m ((c : Thread nD τ).loc main_arg6)) shapeCasts_S32_S1x32 := W3_v40 m ρ c

end Cert.KernelIdeal.Host

end
-- ==== Proof.Region0.lean ====
/-
  The first linear stage as the array it leaves.

  The stage runs over ten row blocks of 10000 nodes. At block t its body multiplies the block's rows of the
  aggregated mean and of the node features with the two whole weight matrices, adds the products and the one-row bias,
  takes the maximum with zero, and stores the 10000 × 64 result, which is written back to rows 10000·t … 10000·t + 9999
  of the hidden array. A product of a row block with a whole matrix is, row by row, the product of the whole arrays:
  entry (r, c) of block t is the sum over k of in(10000·t + r, k) · W(k, c). The ten blocks tile the array, so the array
  ends holding `layer1` of the arrays the stage was entered with.
-/
import proofs.«169534_j38869454028882_1_alg».proof.Proof.Gen.KernelIdeal.Frame
import proofs.«169534_j38869454028882_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## Entries of one block

Inside a block the result's entry (r, c) is made of row r of the two 10000 × 32 operand blocks, column c of the two
32 × 64 weight matrices and entry c of the one-row bias. -/

/-- Entry (r, k) of a 10000 × 32 operand block, for the result's entry (r, c). -/
abbrev blkRow (j : S10000x64.Idx) (k : Fin 32) : S10000x32.Idx := fun a => match a with
  | ⟨0, _⟩ => ⟨(j 0).val, (j 0).isLt⟩
  | ⟨1, _⟩ => ⟨k.val, k.isLt⟩
/-- Entry (k, c) of a weight matrix, for the result's entry (r, c). -/
abbrev blkCol (j : S10000x64.Idx) (k : Fin 32) : S32x64.Idx := fun a => match a with
  | ⟨0, _⟩ => ⟨k.val, k.isLt⟩
  | ⟨1, _⟩ => ⟨(j 1).val, (j 1).isLt⟩
/-- Entry (0, c) of the one-row bias, for the result's entry (r, c). -/
abbrev blkBias (j : S10000x64.Idx) : S1x64.Idx := fun a => match a with
  | ⟨0, _⟩ => ⟨0, Nat.one_pos⟩
  | ⟨1, _⟩ => ⟨(j 1).val, (j 1).isLt⟩

/-! ## The block product at an entry

The product contracts axis 1 of its left operand with axis 0 of its right operand. At the result's entry (r, c) and the
contraction index k the left operand is read at (r, k) and the right operand at (k, c): one fact per operand axis. -/

theorem lhs_axis0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_axis1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_axis0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_axis1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- A block product started from zero is, at entry (r, c), the sum over k of left(r, k) · right(k, c). -/
theorem blockProduct_apply (l : FVec Ideal S10000x32 .bf16) (r : FVec Ideal S32x64 .bf16) (j : S10000x64.Idx) :
    matmul dot_S10000x32_S32x64_S10000x64_1_0_0_1_n_n none l r (constant (F := Ideal) S10000x64 .f32 0x00000000#32) j
      = ∑ k : Fin 32, l (blkRow j k) * r (blkCol j k) := by
  refine (Ideal.matmul_constant_zero_apply dot_S10000x32_S32x64_S10000x64_1_0_0_1_n_n none l r j).trans ?_
  rw [← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx j ((ValueIdx.contrEquiv1 dot_S10000x32_S32x64_S10000x64_1_0_0_1_n_n 32 rfl rfl).symm k) = blkRow j k := funext fun a => Fin.ext (by
    match a with
    | ⟨0, _⟩ => exact lhs_axis0 _ _
    | ⟨1, _⟩ => exact (lhs_axis1 _ _).trans hk)
  have er : dot_S10000x32_S32x64_S10000x64_1_0_0_1_n_n.rhsIdx j ((ValueIdx.contrEquiv1 dot_S10000x32_S32x64_S10000x64_1_0_0_1_n_n 32 rfl rfl).symm k) = blkCol j k := funext fun a => Fin.ext (by
    match a with
    | ⟨0, _⟩ => exact (rhs_axis0 _ _).trans hk
    | ⟨1, _⟩ => exact rhs_axis1 _ _)
  rw [el, er]

/-- The one-row bias spread over the block's rows reads, at entry (r, c), the bias at c. -/
theorem biasRows_apply (b : FVec Ideal S1x64 .f32) (j : S10000x64.Idx) :
    broadcastTo S10000x64 (shapeCast S1x64 b shapeCasts_S1x64_S1x64) broadcasts_S1x64_S10000x64 j = b (blkBias j) := by
  rw [shapeCast_self]
  exact broadcastTo_apply b broadcasts_S1x64_S10000x64 j (blkBias j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- WHAT THE BODY STORES, at entry (r, c) of its block: the maximum with zero of the two products' sums and the bias. -/
theorem payload_apply (a x : Vec Ideal S10000x32 .f32) (wl wr : Vec Ideal S32x64 .f32) (b : Vec Ideal S1x64 .f32) (j : S10000x64.Idx) :
    k0_pay1 (F := Ideal) a x wl wr b j
      = max (((∑ k : Fin 32, a (blkRow j k) * wl (blkCol j k)) + ∑ k : Fin 32, x (blkRow j k) * wr (blkCol j k)) + b (blkBias j))
          (Ideal.ofBits .f32 0x00000000#32) := by
  unfold k0_pay1
  simp only [maximumf_apply, addf_apply, broadcast_apply]
  rw [blockProduct_apply, blockProduct_apply, biasRows_apply]
  simp only [truncf_apply, shapeCast_self]
  rfl

/-! ## One block as rows of the whole arrays -/

/-- Block n of the stage's result, entry by entry: if the two operand blocks are rows 10000·n … 10000·n + 9999 of the
    whole operands and the weights and the bias are the whole ones, then entry (r, c) of what the body stores is the
    layer's entry (10000·n + r, c). -/
theorem block_eq_layer (A X : FVec Ideal S100000x32 .f32) (Wl Wr : FVec Ideal S32x64 .f32) (B : FVec Ideal S1x64 .f32)
    (a x : Vec Ideal S10000x32 .f32) (wl wr : Vec Ideal S32x64 .f32) (b : Vec Ideal S1x64 .f32) (n : Nat)
    (ha : ∀ (y : S10000x32.Idx) (i : S100000x32.Idx), (i 0).val = n * 10000 + (y 0).val → (i 1).val = (y 1).val → a y = A i)
    (hx : ∀ (y : S10000x32.Idx) (i : S100000x32.Idx), (i 0).val = n * 10000 + (y 0).val → (i 1).val = (y 1).val → x y = X i)
    (hwl : wl = Wl) (hwr : wr = Wr) (hb : b = B)
    (j : S10000x64.Idx) (i : S100000x64.Idx) (hi0 : (i 0).val = n * 10000 + (j 0).val) (hi1 : (i 1).val = (j 1).val) :
    k0_pay1 (F := Ideal) a x wl wr b j = layer1 A X Wl Wr (fun i => B (brow64 i)) i := by
  subst hwl hwr hb
  rw [payload_apply]
  show _ = max (((∑ k : Fin 32, A (lrow32 i k) * wl (rcol32 i k)) + ∑ k : Fin 32, X (lrow32 i k) * wr (rcol32 i k)) + b (brow64 i))
    (Ideal.ofBits .f32 0x00000000#32)
  have ec : ∀ k : Fin 32, blkCol j k = rcol32 i k := fun k => funext fun a => Fin.ext (by
    match a with
    | ⟨0, _⟩ => rfl
    | ⟨1, _⟩ => exact hi1.symm)
  have eb : blkBias j = brow64 i := funext fun a => Fin.ext (by
    match a with
    | ⟨0, _⟩ => rfl
    | ⟨1, _⟩ => exact hi1.symm)
  have e1 : ∀ k : Fin 32, a (blkRow j k) * wl (blkCol j k) = A (lrow32 i k) * wl (rcol32 i k) := fun k => by
    rw [ha (blkRow j k) (lrow32 i k) hi0 rfl, ec k]
  have e2 : ∀ k : Fin 32, x (blkRow j k) * wr (blkCol j k) = X (lrow32 i k) * wr (rcol32 i k) := fun k => by
    rw [hx (blkRow j k) (lrow32 i k) hi0 rfl, ec k]
  rw [Finset.sum_congr rfl (fun k _ => e1 k), Finset.sum_congr rfl (fun k _ => e2 k), eb]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the ten points: the two operands and the result move down the rows with the point, the
    weights and the bias stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer of the arrays the stage was entered with. -/
theorem writeback_eq (c : Dev nD) (t : Fin cfg0.N) :
    (dat0 (F := Ideal) V c).flushed 5 t
      = ((cfg0.win 5).blk t).view.read (Elt Ideal)
          (layer1 (V c main_v24) (V c main_arg0) (V c main_arg2) (V c main_arg4) (fun i => V c main_v25 (brow64 i))) := by
  show (cfg0.win 5).cut (grid0.coords t) ((dat0 V c).after 5 t) = _
  rw [after0_5]
  unfold out0_5
  rw [View.canon_unit_zero zero_offsets]
  simp only [View.ld_unit_zero (S := S10000x32) zero_offsets, View.ld_unit_zero (S := S32x64) zero_offsets, View.ld_unit_zero (S := S1x64) zero_offsets]
  obtain ⟨a0, a1, b0, b1, c0, c1, d0, d1, e0, e1, f0, f1⟩ := block_indices t
  funext j
  show k0_pay1 (F := Ideal) (iblk0 V c 0 t) (iblk0 V c 1 t) (iblk0 V c 2 t) (iblk0 V c 4 t) (iblk0 V c 3 t) j
    = layer1 (V c main_v24) (V c main_arg0) (V c main_arg2) (V c main_arg4) (fun i => V c main_v25 (brow64 i)) (((cfg0.win 5).blk t).view.emb j)
  refine block_eq_layer (V c main_v24) (V c main_arg0) (V c main_arg2) (V c main_arg4) (V c main_v25)
    (iblk0 V c 0 t) (iblk0 V c 1 t) (iblk0 V c 2 t) (iblk0 V c 4 t) (iblk0 V c 3 t) t.val ?_ ?_ ?_ ?_ ?_ j (((cfg0.win 5).blk t).view.emb j) ?_ ?_
  · intro y i h0 h1
    show V c main_v24 (((cfg0.win 0).blk t).view.emb y) = V c main_v24 i
    refine congrArg _ (funext fun a => Fin.ext ?_)
    match a with
    | ⟨0, _⟩ => show win0_0.index t (0 : Fin 2) * 10000 + 1 * (y 0).val = (i 0).val; omega
    | ⟨1, _⟩ => show win0_0.index t (1 : Fin 2) * 32 + 1 * (y 1).val = (i 1).val; omega
  · intro y i h0 h1
    show V c main_arg0 (((cfg0.win 1).blk t).view.emb y) = V c main_arg0 i
    refine congrArg _ (funext fun a => Fin.ext ?_)
    match a with
    | ⟨0, _⟩ => show win0_1.index t (0 : Fin 2) * 10000 + 1 * (y 0).val = (i 0).val; omega
    | ⟨1, _⟩ => show win0_1.index t (1 : Fin 2) * 32 + 1 * (y 1).val = (i 1).val; omega
  · funext y
    show V c main_arg2 (((cfg0.win 2).blk t).view.emb y) = V c main_arg2 y
    refine congrArg _ (funext fun a => Fin.ext ?_)
    match a with
    | ⟨0, _⟩ => show win0_2.index t (0 : Fin 2) * 32 + 1 * (y 0).val = (y 0).val; omega
    | ⟨1, _⟩ => show win0_2.index t (1 : Fin 2) * 64 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 32 + 1 * (y 0).val = (y 0).val; omega
    | ⟨1, _⟩ => show win0_4.index t (1 : Fin 2) * 64 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · show win0_5.index t (0 : Fin 2) * 10000 + 1 * (j 0).val = t.val * 10000 + (j 0).val; omega
  · show win0_5.index t (1 : Fin 2) * 64 + 1 * (j 1).val = (j 1).val; omega

/-- An entry of the hidden array is in point t's block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- THE TEN BLOCKS TILE THE ARRAY: row r lies in the block of point r / 10000. -/
theorem blocks_tile (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, -, -, -, -, -, -, f0, f1⟩ := block_indices t
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE HIDDEN ARRAY after the first stage, from the arrays the stage finds at its entry, whatever they are. -/
theorem region0_value (c : Dev nD) :
    (dat0 (F := Ideal) V c).arrAt 5 cfg0.N
      = layer1 (V c main_v24) (V c main_arg0) (V c main_arg2) (V c main_arg4) (fun i => V c main_v25 (brow64 i)) :=
  (dat0 (F := Ideal) V c).arrAt_eq_of_cover 5 _ (fun t _ => writeback_eq V c t) blocks_tile

end Cert.KernelIdeal.Region0

end
-- ==== Proof.Region1.lean ====
/-
  The second linear stage as the array it leaves: as the first, without the maximum, over 64 input and 32 output
  columns. At block t the body multiplies the block's rows of the aggregated mean and of the hidden features with the two
  whole 64 × 32 weight matrices, adds the products and the one-row bias, and stores the 10000 × 32 result, which is written
  back to rows 10000·t … 10000·t + 9999 of the result array. Entry (r, c) of block t is the sum over k of
  in(10000·t + r, k) · W(k, c) for each operand, plus the bias at c. The ten row blocks tile the result array, which ends
  holding `layer2` of the arrays the stage was entered with.
-/
import proofs.«169534_j38869454028882_1_alg».proof.Proof.Gen.KernelIdeal.Frame
import proofs.«169534_j38869454028882_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## Entries of one block

Inside a block the result's entry (r, c) is made of row r of the two 10000 × 64 operand blocks, column c of the two
64 × 32 weight matrices and entry c of the one-row bias. -/

/-- Entry (r, k) of a 10000 × 64 operand block, for the result's entry (r, c). -/
abbrev blkRow (j : S10000x32.Idx) (k : Fin 64) : S10000x64.Idx := fun a => match a with
  | ⟨0, _⟩ => ⟨(j 0).val, (j 0).isLt⟩
  | ⟨1, _⟩ => ⟨k.val, k.isLt⟩
/-- Entry (k, c) of a weight matrix, for the result's entry (r, c). -/
abbrev blkCol (j : S10000x32.Idx) (k : Fin 64) : S64x32.Idx := fun a => match a with
  | ⟨0, _⟩ => ⟨k.val, k.isLt⟩
  | ⟨1, _⟩ => ⟨(j 1).val, (j 1).isLt⟩
/-- Entry (0, c) of the one-row bias, for the result's entry (r, c). -/
abbrev blkBias (j : S10000x32.Idx) : S1x32.Idx := fun a => match a with
  | ⟨0, _⟩ => ⟨0, Nat.one_pos⟩
  | ⟨1, _⟩ => ⟨(j 1).val, (j 1).isLt⟩

/-! ## The block product at an entry

The product contracts axis 1 of its left operand with axis 0 of its right operand. At the result's entry (r, c) and the
contraction index k the left operand is read at (r, k) and the right operand at (k, c): one fact per operand axis. -/

theorem lhs_axis0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_axis1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_axis0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_axis1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- A block product started from zero is, at entry (r, c), the sum over k of left(r, k) · right(k, c). -/
theorem blockProduct_apply (l : FVec Ideal S10000x64 .bf16) (r : FVec Ideal S64x32 .bf16) (j : S10000x32.Idx) :
    matmul dot_S10000x64_S64x32_S10000x32_1_0_0_1_n_n none l r (constant (F := Ideal) S10000x32 .f32 0x00000000#32) j
      = ∑ k : Fin 64, l (blkRow j k) * r (blkCol j k) := by
  refine (Ideal.matmul_constant_zero_apply dot_S10000x64_S64x32_S10000x32_1_0_0_1_n_n none l r j).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = blkRow j k := funext fun a => Fin.ext (by
    match a with
    | ⟨0, _⟩ => exact lhs_axis0 _ _
    | ⟨1, _⟩ => exact (lhs_axis1 _ _).trans hk)
  have er : dot_S10000x64_S64x32_S10000x32_1_0_0_1_n_n.rhsIdx j ((ValueIdx.contrEquiv1 dot_S10000x64_S64x32_S10000x32_1_0_0_1_n_n 64 rfl rfl).symm k) = blkCol j k := funext fun a => Fin.ext (by
    match a with
    | ⟨0, _⟩ => exact (rhs_axis0 _ _).trans hk
    | ⟨1, _⟩ => exact rhs_axis1 _ _)
  rw [el, er]

/-- The one-row bias spread over the block's rows reads, at entry (r, c), the bias at c. -/
theorem biasRows_apply (b : FVec Ideal S1x32 .f32) (j : S10000x32.Idx) :
    broadcastTo S10000x32 (shapeCast S1x32 b shapeCasts_S1x32_S1x32) broadcasts_S1x32_S10000x32 j = b (blkBias j) := by
  rw [shapeCast_self]
  exact broadcastTo_apply b broadcasts_S1x32_S10000x32 j (blkBias j) (fun a => match a with
    | ⟨0, _⟩ => by show 0 = if (1 : Nat) = 1 then 0 else _; rw [if_pos rfl]
    | ⟨1, _⟩ => by show (j 1).val = if (32 : Nat) = 1 then 0 else (j 1).val; rw [if_neg (by decide)])

/-- WHAT THE BODY STORES, at entry (r, c) of its block: the two products' sums and the bias. -/
theorem payload_apply (a x : Vec Ideal S10000x64 .f32) (wl wr : Vec Ideal S64x32 .f32) (b : Vec Ideal S1x32 .f32) (j : S10000x32.Idx) :
    k1_pay1 (F := Ideal) a x wl wr b j
      = ((∑ k : Fin 64, a (blkRow j k) * wl (blkCol j k)) + ∑ k : Fin 64, x (blkRow j k) * wr (blkCol j k)) + b (blkBias j) := by
  unfold k1_pay1
  simp only [addf_apply]
  rw [blockProduct_apply, blockProduct_apply, biasRows_apply]
  simp only [truncf_apply, shapeCast_self]

/-! ## One block as rows of the whole arrays -/

/-- Block n of the stage's result, entry by entry: if the two operand blocks are rows 10000·n … 10000·n + 9999 of the
    whole operands and the weights and the bias are the whole ones, then entry (r, c) of what the body stores is the
    layer's entry (10000·n + r, c). -/
theorem block_eq_layer (A X : FVec Ideal S100000x64 .f32) (Wl Wr : FVec Ideal S64x32 .f32) (B : FVec Ideal S1x32 .f32)
    (a x : Vec Ideal S10000x64 .f32) (wl wr : Vec Ideal S64x32 .f32) (b : Vec Ideal S1x32 .f32) (n : Nat)
    (ha : ∀ (y : S10000x64.Idx) (i : S100000x64.Idx), (i 0).val = n * 10000 + (y 0).val → (i 1).val = (y 1).val → a y = A i)
    (hx : ∀ (y : S10000x64.Idx) (i : S100000x64.Idx), (i 0).val = n * 10000 + (y 0).val → (i 1).val = (y 1).val → x y = X i)
    (hwl : wl = Wl) (hwr : wr = Wr) (hb : b = B)
    (j : S10000x32.Idx) (i : S100000x32.Idx) (hi0 : (i 0).val = n * 10000 + (j 0).val) (hi1 : (i 1).val = (j 1).val) :
    k1_pay1 (F := Ideal) a x wl wr b j = layer2 A X Wl Wr (fun i => B (brow32 i)) i := by
  subst hwl hwr hb
  rw [payload_apply]
  show _ = ((∑ k : Fin 64, A (lrow64 i k) * wl (rcol64 i k)) + ∑ k : Fin 64, X (lrow64 i k) * wr (rcol64 i k)) + b (brow32 i)
  have ec : ∀ k : Fin 64, blkCol j k = rcol64 i k := fun k => funext fun a => Fin.ext (by
    match a with
    | ⟨0, _⟩ => rfl
    | ⟨1, _⟩ => exact hi1.symm)
  have eb : blkBias j = brow32 i := funext fun a => Fin.ext (by
    match a with
    | ⟨0, _⟩ => rfl
    | ⟨1, _⟩ => exact hi1.symm)
  have e1 : ∀ k : Fin 64, a (blkRow j k) * wl (blkCol j k) = A (lrow64 i k) * wl (rcol64 i k) := fun k => by
    rw [ha (blkRow j k) (lrow64 i k) hi0 rfl, ec k]
  have e2 : ∀ k : Fin 64, x (blkRow j k) * wr (blkCol j k) = X (lrow64 i k) * wr (rcol64 i k) := fun k => by
    rw [hx (blkRow j k) (lrow64 i k) hi0 rfl, ec k]
  rw [Finset.sum_congr rfl (fun k _ => e1 k), Finset.sum_congr rfl (fun k _ => e2 k), eb]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the ten points: the two operands and the result move down the rows with the point, the
    weights and the bias stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer of the arrays the stage was entered with. -/
theorem writeback_eq (c : Dev nD) (t : Fin cfg1.N) :
    (dat1 (F := Ideal) V c).flushed 5 t
      = ((cfg1.win 5).blk t).view.read (Elt Ideal)
          (layer2 (V c main_v39) (V c main_v26) (V c main_arg5) (V c main_arg7) (fun i => V c main_v40 (brow32 i))) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x32) zero_offsets, View.ld_unit_zero (S := S1x32) zero_offsets]
  obtain ⟨a0, a1, b0, b1, c0, c1, d0, d1, e0, e1, f0, f1⟩ := block_indices t
  funext j
  show k1_pay1 (F := Ideal) (iblk1 V c 0 t) (iblk1 V c 1 t) (iblk1 V c 2 t) (iblk1 V c 4 t) (iblk1 V c 3 t) j
    = layer2 (V c main_v39) (V c main_v26) (V c main_arg5) (V c main_arg7) (fun i => V c main_v40 (brow32 i)) (((cfg1.win 5).blk t).view.emb j)
  refine block_eq_layer (V c main_v39) (V c main_v26) (V c main_arg5) (V c main_arg7) (V c main_v40)
    (iblk1 V c 0 t) (iblk1 V c 1 t) (iblk1 V c 2 t) (iblk1 V c 4 t) (iblk1 V c 3 t) t.val ?_ ?_ ?_ ?_ ?_ j (((cfg1.win 5).blk t).view.emb j) ?_ ?_
  · intro y i h0 h1
    show V c main_v39 (((cfg1.win 0).blk t).view.emb y) = V c main_v39 i
    refine congrArg _ (funext fun a => Fin.ext ?_)
    match a with
    | ⟨0, _⟩ => show win1_0.index t (0 : Fin 2) * 10000 + 1 * (y 0).val = (i 0).val; omega
    | ⟨1, _⟩ => show win1_0.index t (1 : Fin 2) * 64 + 1 * (y 1).val = (i 1).val; omega
  · intro y i h0 h1
    show V c main_v26 (((cfg1.win 1).blk t).view.emb y) = V c main_v26 i
    refine congrArg _ (funext fun a => Fin.ext ?_)
    match a with
    | ⟨0, _⟩ => show win1_1.index t (0 : Fin 2) * 10000 + 1 * (y 0).val = (i 0).val; omega
    | ⟨1, _⟩ => show win1_1.index t (1 : Fin 2) * 64 + 1 * (y 1).val = (i 1).val; omega
  · funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 32 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 32 + 1 * (y 1).val = (y 1).val; omega
  · funext y
    show V c main_v40 (((cfg1.win 3).blk t).view.emb y) = V c main_v40 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  · show win1_5.index t (0 : Fin 2) * 10000 + 1 * (j 0).val = t.val * 10000 + (j 0).val; omega
  · show win1_5.index t (1 : Fin 2) * 32 + 1 * (j 1).val = (j 1).val; omega

/-- An entry of the result array is in point t's block iff each coordinate is in the block's range on its axis. -/
theorem mem_block (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v41).slice (win1_5.rect t)).set ↔ _
  rw [View.set_slice_whole, Rect.mem_set_unit]
  exact Iff.rfl

/-- THE TEN BLOCKS TILE THE ARRAY: row r lies in the block of point r / 10000. -/
theorem blocks_tile (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, -, -, -, -, f0, f1⟩ := block_indices t
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- THE RESULT ARRAY after the second stage, from the arrays the stage finds at its entry, whatever they are. -/
theorem region1_value (c : Dev nD) :
    (dat1 (F := Ideal) V c).arrAt 5 cfg1.N
      = layer2 (V c main_v39) (V c main_v26) (V c main_arg5) (V c main_arg7) (fun i => V c main_v40 (brow32 i)) :=
  (dat1 (F := Ideal) V c).arrAt_eq_of_cover 5 _ (fun t _ => writeback_eq V c t) blocks_tile

end Cert.KernelIdeal.Region1

end
-- ==== Proof.KernelValue.lean ====
/-
  The kernel's program computes the network's `output`.

  The result array is what the second linear stage leaves: `layer2` of the arrays it was entered with. Those are the
  second weights and bias, the hidden features, and the mean of the neighbours' hidden features formed as a product
  with 1 / d. The hidden features are what the first stage left: `layer1` of the first weights and bias, the node
  features, and the mean of the neighbours' features, again as a product. A product with 1 / d is the quotient by d
  (d ≥ 1), so both means are the means `output` is defined with.
-/
import proofs.«169534_j38869454028882_1_alg».proof.Proof.KernelRun
import proofs.«169534_j38869454028882_1_alg».proof.Proof.KernelHost
import proofs.«169534_j38869454028882_1_alg».proof.Proof.Region0
import proofs.«169534_j38869454028882_1_alg».proof.Proof.Region1
import proofs.«169534_j38869454028882_1_alg».proof.Proof.Spec

set_option maxRecDepth 16384

noncomputable section

namespace Cert.KernelIdeal.Net

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- The array the first stage leaves is the hidden features of the arguments. -/
theorem hidden_eq (c : Dev nD) :
    (dat0 (V1 m ρ) c).arrAt 5 cfg0.N = Cert.Sage.hidden (m ((c : Thread nD τ).loc main_arg1)) (m ((c : Thread nD τ).loc main_arg0)) (m ((c : Thread nD τ).loc main_arg2)) (m ((c : Thread nD τ).loc main_arg4)) (m ((c : Thread nD τ).loc main_arg3)) := by
  rw [Region0.region0_value (V1 m ρ) c, Host.V1_v24, Host.V1_arg0, Host.V1_arg2, Host.V1_arg4, Host.V1_v25, meanMul32_eq]
  unfold Cert.Sage.hidden
  exact congrArg (layer1 _ _ _ _) (funext fun i => Host.bias64_apply _ i)

/-- The result array at the end of the run is the network's output of the arguments. -/
theorem result_eq (c : Dev nD) :
    W4 m ρ c (Proc.devRef .tc main_v41) = output (m ((c : Thread nD τ).loc main_arg1)) (m ((c : Thread nD τ).loc main_arg0)) (m ((c : Thread nD τ).loc main_arg2)) (m ((c : Thread nD τ).loc main_arg4)) (m ((c : Thread nD τ).loc main_arg3))
        (m ((c : Thread nD τ).loc main_arg5)) (m ((c : Thread nD τ).loc main_arg7)) (m ((c : Thread nD τ).loc main_arg6)) := by
  rw [show W4 m ρ c (Proc.devRef .tc main_v41) = (dat1 (V3 m ρ) c).arrAt 5 cfg1.N from W4_arr m ρ c 5,
    Region1.region1_value (V3 m ρ) c, Host.V3_v39, Host.V3_v26, Host.V3_arg5, Host.V3_arg7, Host.V3_v40,
    hidden_eq m ρ c, meanMul64_eq]
  unfold output
  exact congrArg (layer2 _ _ _ _) (funext fun i => Host.bias32_apply _ i)

/-- Every weakly fair execution of the kernel's program terminates without a fault, with the result array at the
    network's output of the arguments and the arguments as launched. -/
theorem run : θ_run defs (onTc (τ := τ) (main (F := Ideal))) ⟨m, fun _ => 0, ρ⟩ (fun r => ∀ c : Dev nD,
      r.2.mem ((c.tc : Thread nD τ).loc main_v41) = output (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg3))
        (m ((c.tc : Thread nD τ).loc main_arg5)) (m ((c.tc : Thread nD τ).loc main_arg7)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Result.run_result m ρ)

end Cert.KernelIdeal.Net

end
-- ==== Proof.RefValue.lean ====
/-
  The reference program's result is the network's `output`.

  Its run ends with the result at one composed term of the arguments. Read entry by entry, each of its two layers is
  (mean · W_l + b) + in · W_r, the mean a quotient by d: the same three terms as `layer1` and `layer2` add, in another
  order, which is immaterial on the extended reals (+ is associative and commutative there). The gather and the segment
  sum inside the mean are not opened.
-/
import proofs.«169534_j38869454028882_1_alg».proof.Proof.Gen.ReferenceIdeal.Run
import proofs.«169534_j38869454028882_1_alg».proof.Proof.Gen.ReferenceIdeal.Read
import proofs.«169534_j38869454028882_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.Sage
open Idealize.ShloMosaic Idealize.ShloMosaic.TcCoe Idealize.ShloMosaic.ValueIdx Idealize.SL.Sem Idealize.ShloMosaic.StableHlo

/-! ## A matrix product at an entry

Entry (r, c) of P · W is the sum over the shared axis k of P(r, k) · W(k, c). The contraction has one axis, so its index
set is in bijection with the numbers below the width, and the sum is re-indexed along that bijection. -/

/-- The 32-wide product: entry (r, c) of a [100000, 32] array times a [32, 64] matrix. -/
theorem dot32_apply (P : FVec Ideal S100000x32 .f32) (W : FVec Ideal S32x64 .f32) (i : S100000x64.Idx) :
    Host.dotGeneral (F := Ideal) dot_S100000x32_S32x64_S100000x64_1_0_0_1_n_n none P W i
      = ∑ k : Fin 32, P (lrow32 i k) * W (rcol32 i k) :=
  Cert.ReferenceIdeal.Read.val_main_v27_apply P W i

/-- The 64-wide product: entry (r, c) of a [100000, 64] array times a [64, 32] matrix. -/
theorem dot64_apply (P : FVec Ideal S100000x64 .f32) (W : FVec Ideal S64x32 .f32) (i : S100000x32.Idx) :
    Host.dotGeneral (F := Ideal) dot_S100000x64_S64x32_S100000x32_1_0_0_1_n_n none P W i
      = ∑ k : Fin 64, P (lrow64 i k) * W (rcol64 i k) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  -- the left operand is read at (r, k) …
  have el : dot_S100000x64_S64x32_S100000x32_1_0_0_1_n_n.lhsIdx i ((ValueIdx.contrEquiv1 dot_S100000x64_S64x32_S100000x32_1_0_0_1_n_n 64 rfl rfl).symm k) = lrow64 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  -- … and the right operand at (k, c).
  have er : dot_S100000x64_S64x32_S100000x32_1_0_0_1_n_n.rhsIdx i ((ValueIdx.contrEquiv1 dot_S100000x64_S64x32_S100000x32_1_0_0_1_n_n 64 rfl rfl).symm k) = rcol64 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## A bias vector spread over the rows, and the zero of the rectifier -/

/-- A bias vector made a one-row matrix and repeated down the rows is, at entry (r, c), the bias of column c. -/
theorem biasBcast64_apply (b : FVec Ideal S64 .f32) (i : S100000x64.Idx) :
    broadcastInDim S100000x64 ![0, 1] bcast_S1x64_S100000x64_0_1 (broadcastInDim S1x64 ![1] bcast_S64_S1x64_1 b) i = b (bias64 i) :=
  (broadcastInDim_apply _ bcast_S1x64_S100000x64_0_1 _ i (brow64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans
  (broadcastInDim_apply _ bcast_S64_S1x64_1 b (brow64 i) (bias64 i) (fun a => match a with
    | ⟨0, _⟩ => by show (i 1).val = if (64 : Nat) = 1 then 0 else (i 1).val; rw [if_neg (by decide)]))

theorem biasBcast32_apply (b : FVec Ideal S32 .f32) (i : S100000x32.Idx) :
    broadcastInDim S100000x32 ![0, 1] bcast_S1x32_S100000x32_0_1 (broadcastInDim S1x32 ![1] bcast_S32_S1x32_1 b) i = b (bias32 i) :=
  (broadcastInDim_apply _ bcast_S1x32_S100000x32_0_1 _ i (brow32 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])).trans
  (broadcastInDim_apply _ bcast_S32_S1x32_1 b (brow32 i) (bias32 i) (fun a => match a with
    | ⟨0, _⟩ => by show (i 1).val = if (32 : Nat) = 1 then 0 else (i 1).val; rw [if_neg (by decide)]))

/-- The literal 0.0 spread over a [100000, 64] array is that literal at every entry. -/
theorem zeroSplat64_apply (i : S100000x64.Idx) :
    broadcastInDim S100000x64 ![] bcast_S_S100000x64 (constant (F := Ideal) S_ .f32 0x00000000#32) i
      = Ideal.ofBits .f32 0x00000000#32 :=
  (broadcastInDim_apply _ bcast_S_S100000x64 _ i (fun a => a.elim0) (fun a => a.elim0)).trans (constant_apply _ _)

/-! ## The two layers as the reference spells them

Over ANY operands the reference's layer, (A · W_l + b) + X · W_r, is the layer (A · W_l + X · W_r) + b: at an entry the
three summands are the same extended reals and only the bracketing differs. -/

/-- The reference's first layer, max((A · W_l + b) + X · W_r, 0), is `layer1`. -/
theorem layer1_eq (A X : FVec Ideal S100000x32 .f32) (Wl Wr : FVec Ideal S32x64 .f32) (b : FVec Ideal S64 .f32) :
    maximumf (addf (addf (Host.dotGeneral (F := Ideal) dot_S100000x32_S32x64_S100000x64_1_0_0_1_n_n none A Wl)
          (broadcastInDim S100000x64 ![0, 1] bcast_S1x64_S100000x64_0_1 (broadcastInDim S1x64 ![1] bcast_S64_S1x64_1 b)))
        (Host.dotGeneral (F := Ideal) dot_S100000x32_S32x64_S100000x64_1_0_0_1_n_n none X Wr))
      (broadcastInDim S100000x64 ![] bcast_S_S100000x64 (constant (F := Ideal) S_ .f32 0x00000000#32))
    = layer1 A X Wl Wr (fun i => b (bias64 i)) := by
  funext i
  rw [maximumf_apply, addf_apply, addf_apply, dot32_apply, dot32_apply, biasBcast64_apply, zeroSplat64_apply]
  unfold layer1
  rw [add_right_comm]

/-- The reference's second layer, (A · W_l + b) + H · W_r, is `layer2`. -/
theorem layer2_eq (A H : FVec Ideal S100000x64 .f32) (Wl Wr : FVec Ideal S64x32 .f32) (b : FVec Ideal S32 .f32) :
    addf (addf (Host.dotGeneral (F := Ideal) dot_S100000x64_S64x32_S100000x32_1_0_0_1_n_n none A Wl)
          (broadcastInDim S100000x32 ![0, 1] bcast_S1x32_S100000x32_0_1 (broadcastInDim S1x32 ![1] bcast_S32_S1x32_1 b)))
        (Host.dotGeneral (F := Ideal) dot_S100000x64_S64x32_S100000x32_1_0_0_1_n_n none H Wr)
    = layer2 A H Wl Wr (fun i => b (bias32 i)) := by
  funext i
  rw [addf_apply, addf_apply, dot64_apply, dot64_apply, biasBcast32_apply]
  unfold layer2
  rw [add_right_comm]

/-- THE REFERENCE'S RESULT is the network's output of its arguments. -/
theorem result_eq (m : (ℓ : Loc nD τ sig) → Buf (Elt Ideal) ℓ) (c : Dev nD) :
    Cert.ReferenceIdeal.Value.res_main_v54 (F := Ideal) m c
      = output (m ((c.tc : Thread nD τ).loc main_arg1)) (m ((c.tc : Thread nD τ).loc main_arg0))
          (m ((c.tc : Thread nD τ).loc main_arg2)) (m ((c.tc : Thread nD τ).loc main_arg4)) (m ((c.tc : Thread nD τ).loc main_arg3))
          (m ((c.tc : Thread nD τ).loc main_arg5)) (m ((c.tc : Thread nD τ).loc main_arg7)) (m ((c.tc : Thread nD τ).loc main_arg6)) := by
  -- The result as one composed term of the arguments; none of its operations is evaluated.
  unfold Cert.ReferenceIdeal.Value.res_main_v54
  -- The hidden layer stands in the term twice, once under the second mean's gather and once as the last product's
  -- operand, both times as the same term: both become `layer1` of the first mean, x, W1_l, W1_r and b1.
  rw [layer1_eq]
  -- The outer layer is `layer2` of the second mean, the hidden features, W2_l, W2_r and b2.
  rw [layer2_eq]
  -- What remains on either side is the same quotient by d of the same segment sum of the same gathered rows.
  unfold Cert.Sage.output Cert.Sage.hidden Cert.Sage.meanDiv64 Cert.Sage.meanDiv32 Cert.Sage.sum64 Cert.Sage.sum32 Cert.Sage.degClamp Cert.Sage.dstIdx Cert.Sage.srcIdx
  rfl

end Cert.ReferenceIdeal.RefValue

end
-- ==== Proof.lean ====
/-
  Two-layer GraphSAGE with mean aggregation: a program whose two linear stages run as blocked matrix kernels, against a
  plain array reference, as functions on the extended reals.

  Both compute, for node features x, an edge list (s, t) and weights W_l, W_r, b per layer,

      h   = max((mean(x) · W1_l + b1) + x · W1_r, 0)
      out =     (mean(h) · W2_l + b2) + h · W2_r,

  where mean(f) at node n is the sum of f(s) over the edges (s, n) that end in n, divided by d(n) = max(deg(n), 1).

  The kernel's program forms the mean as sum · (1 / d) with 1 / d computed once, runs each layer's two products over ten
  blocks of 10000 rows against the whole weight matrices, and adds the bias last; the reference divides the sum by d,
  multiplies whole arrays, and adds the bias between the two products. These are the same function:
    * d ≥ 1 is not zero, so s · (1 · d⁻¹) = s · d⁻¹ for every extended real s (Spec: `meanMul32_eq`, `meanMul64_eq`);
    * a row block times a matrix is, row by row, the whole product, and the blocks tile the array (Region0, Region1);
    * + on the extended reals is associative and commutative, so the order of a layer's three terms is immaterial (RefValue).
  No finiteness of the inputs is used: the gather along the source nodes and the segment sum over the target nodes are
  the same operations on the same operands in both programs and are never opened.

  The kernel's idealization rewrote nothing, so that it is the kernel's sanctioned idealization holds trivially.
-/
import proofs.«169534_j38869454028882_1_alg».proof.Defs
import proofs.«169534_j38869454028882_1_alg».proof.Proof.Gen.Kernel
import proofs.«169534_j38869454028882_1_alg».proof.Proof.Gen.Kernel.Skeleton
import proofs.«169534_j38869454028882_1_alg».proof.Proof.Gen.Kernel.Launch
import proofs.«169534_j38869454028882_1_alg».proof.Proof.Gen.Kernel.Points
import proofs.«169534_j38869454028882_1_alg».proof.Proof.Gen.Kernel.Frame
import proofs.«169534_j38869454028882_1_alg».proof.Proof.Gen.KernelIdeal
import proofs.«169534_j38869454028882_1_alg».proof.Proof.Gen.KernelIdeal.Skeleton
import proofs.«169534_j38869454028882_1_alg».proof.Proof.Gen.KernelIdeal.Launch
import proofs.«169534_j38869454028882_1_alg».proof.Proof.Gen.KernelIdeal.Points
import proofs.«169534_j38869454028882_1_alg».proof.Proof.Gen.KernelIdeal.Frame
import proofs.«169534_j38869454028882_1_alg».proof.Proof.Gen.ReferenceIdeal
import proofs.«169534_j38869454028882_1_alg».proof.Proof.Gen.ReferenceIdeal.Run
import proofs.«169534_j38869454028882_1_alg».proof.Proof.Gen.ReferenceIdeal.Read
import proofs.«169534_j38869454028882_1_alg».proof.Proof.Gen.Pre_finite_inputs
import Idealize.ShloMosaic.Adequacy
import Idealize.ShloMosaic.Init
import proofs.«169534_j38869454028882_1_alg».proof.Proof.KernelValue
import proofs.«169534_j38869454028882_1_alg».proof.Proof.RefValue

noncomputable section

namespace Cert.Proof

open Idealize.ShloMosaic Idealize.ShloMosaic.TcCoe Idealize.SL.Sem

/-- The word-level program runs, faults nowhere and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the network's output of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
